-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x16x128 : Shape := ⟨4, ![2, 2048, 16, 128]⟩
abbrev S_ : Shape := ⟨0, ![]⟩

class Facts : Prop where
  bcast_S_S2x2048x16x128 : S_.BroadcastsInDim S2x2048x16x128 (![] : Fin 0 → Fin S2x2048x16x128.rank)
  reducesTo_S2x2048x16x128_S_d0_1_2_3 : S2x2048x16x128.ReducesTo [0, 1, 2, 3] S_
  h_S_ : 0 < S_.numel

variable [Facts]

def fn {F : FTy → Type} [FloatOps F] (main_arg0 : FVec F S2x2048x16x128 .f32) (main_arg1 : FVec F S2x2048x16x128 .f32) (main_arg2 : FVec F S2x2048x16x128 .f32) : IVec S_ 1 :=
  let main_v0 : FVec F S2x2048x16x128 .f32 := Host.absf main_arg0
  let main_cst : FVec F S_ .f32 := constant S_ .f32 0x7F800000#32
  let main_v1 : FVec F S2x2048x16x128 .f32 := broadcastInDim S2x2048x16x128 ![] bcast_S_S2x2048x16x128 main_cst
  let main_v2 : IVec S2x2048x16x128 1 := cmpf .olt main_v0 main_v1
  let main_c : IVec S_ 1 := constantI S_ 1 1#1
  let main_v3 : IVec S_ 1 := (fun x v => Host.reduce IntOp.andi x v reducesTo_S2x2048x16x128_S_d0_1_2_3 h_S_) main_v2 main_c
  let main_v4 : FVec F S2x2048x16x128 .f32 := Host.absf main_arg1
  let main_cst_0 : FVec F S_ .f32 := constant S_ .f32 0x7F800000#32
  let main_v5 : FVec F S2x2048x16x128 .f32 := broadcastInDim S2x2048x16x128 ![] bcast_S_S2x2048x16x128 main_cst_0
  let main_v6 : IVec S2x2048x16x128 1 := cmpf .olt main_v4 main_v5
  let main_c_1 : IVec S_ 1 := constantI S_ 1 1#1
  let main_v7 : IVec S_ 1 := (fun x v => Host.reduce IntOp.andi x v reducesTo_S2x2048x16x128_S_d0_1_2_3 h_S_) main_v6 main_c_1
  let main_v8 : IVec S_ 1 := andi main_v3 main_v7
  let main_v9 : FVec F S2x2048x16x128 .f32 := Host.absf main_arg2
  let main_cst_2 : FVec F S_ .f32 := constant S_ .f32 0x7F800000#32
  let main_v10 : FVec F S2x2048x16x128 .f32 := broadcastInDim S2x2048x16x128 ![] bcast_S_S2x2048x16x128 main_cst_2
  let main_v11 : IVec S2x2048x16x128 1 := cmpf .olt main_v9 main_v10
  let main_c_3 : IVec S_ 1 := constantI S_ 1 1#1
  let main_v12 : IVec S_ 1 := (fun x v => Host.reduce IntOp.andi x v reducesTo_S2x2048x16x128_S_d0_1_2_3 h_S_) main_v11 main_c_3
  let main_v13 : IVec S_ 1 := andi main_v8 main_v12
  main_v13
-- ==== Kernel.lean ====
abbrev S2x2048x16x128 : Shape := ⟨4, ![2, 2048, 16, 128]⟩
abbrev S2x2048x2048 : Shape := ⟨3, ![2, 2048, 2048]⟩
abbrev S_ : Shape := ⟨0, ![]⟩
abbrev S2x16x2048x2048 : Shape := ⟨4, ![2, 16, 2048, 2048]⟩
abbrev S1x1024x128 : Shape := ⟨3, ![1, 1024, 128]⟩
abbrev S1x2048x128 : Shape := ⟨3, ![1, 2048, 128]⟩
abbrev S1x1x1024x2048 : Shape := ⟨4, ![1, 1, 1024, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x16x128, .f32⟩
  | .hbm, ⟨2, _⟩ => ⟨S2x2048x16x128, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .bf16⟩
  | .hbm, ⟨10, _⟩ => ⟨S2x2048x2048, .f32⟩
  | .hbm, ⟨11, _⟩ => ⟨S2x2048x2048, .f32⟩
  | .hbm, ⟨12, _⟩ => ⟨S2x2048x2048, .bf16⟩
  | .hbm, ⟨13, _⟩ => ⟨S2x2048x2048, .bf16⟩
  | .hbm, ⟨14, _⟩ => ⟨S2x2048x2048, .f32⟩
  | .hbm, ⟨15, _⟩ => ⟨S2x2048x2048, .f32⟩
  | .hbm, ⟨16, _⟩ => ⟨S2x2048x2048, .bf16⟩
  | .hbm, ⟨17, _⟩ => ⟨S2x16x2048x2048, .f32⟩
  | .hbm, ⟨18, _⟩ => ⟨S2x2048x2048, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x1x1024x2048, .f32⟩
  | .local _ .vmem, ⟨11, _⟩ => ⟨S1x1x1024x2048, .f32⟩
  | .local _ .vmem, ⟨12, _⟩ => ⟨S1x1024x128, .f32⟩
  | .local _ .vmem, ⟨13, _⟩ => ⟨S1x1024x128, .f32⟩
  | _, _ => ⟨S2x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  shapeCasts_S2x2048x16x128_S2x2048x2048 : S2x2048x16x128.ShapeCasts S2x2048x2048
  bcast_S_S2x2048x2048 : S_.BroadcastsInDim S2x2048x2048 (![] : Fin 0 → Fin S2x2048x2048.rank)
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S2x2048x2048.size a
  hwx0_0 : ∀ i : grid0.Coords, EltTy.bits .bf16 = 32 ∨ (Rect.block (s := S2x2048x2048) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S2x2048x2048.size a
  hwx0_1 : ∀ i : grid0.Coords, EltTy.bits .bf16 = 32 ∨ (Rect.block (s := S2x2048x2048) S1x1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S2x2048x2048.size a
  hwx0_2 : ∀ i : grid0.Coords, EltTy.bits .bf16 = 32 ∨ (Rect.block (s := S2x2048x2048) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S2x2048x2048.size a
  hwx0_3 : ∀ i : grid0.Coords, EltTy.bits .bf16 = 32 ∨ (Rect.block (s := S2x2048x2048) S1x2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S2x2048x2048.size a
  hwx0_4 : ∀ i : grid0.Coords, EltTy.bits .f32 = 32 ∨ (Rect.block (s := S2x2048x2048) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S2x2048x2048.size a
  hwx0_6 : ∀ i : grid0.Coords, EltTy.bits .f32 = 32 ∨ (Rect.block (s := S2x2048x2048) S1x1024x128.size (cc0_transform_6 i) (hinb0_6 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v5) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x1x1024x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x16x128 : Shape := ⟨4, ![2, 2048, 16, 128]⟩
abbrev S2x16x2048x128 : Shape := ⟨4, ![2, 16, 2048, 128]⟩
abbrev S_ : Shape := ⟨0, ![]⟩
abbrev S2x16x128x2048 : Shape := ⟨4, ![2, 16, 128, 2048]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x2048 : Shape := ⟨3, ![2, 2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x16x128, .f32⟩
  | .hbm, ⟨2, _⟩ => ⟨S2x2048x16x128, .f32⟩
  | .hbm, ⟨3, _⟩ => ⟨S2x16x2048x128, .f32⟩
  | .hbm, ⟨4, _⟩ => ⟨S_, .f32⟩
  | .hbm, ⟨5, _⟩ => ⟨S2x16x2048x128, .f32⟩
  | .hbm, ⟨6, _⟩ => ⟨S2x16x2048x128, .f32⟩
  | .hbm, ⟨7, _⟩ => ⟨S2x16x2048x128, .f32⟩
  | .hbm, ⟨8, _⟩ => ⟨S2x16x128x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x128, .f32⟩
  | .hbm, ⟨26, _⟩ => ⟨S2x2048x16x128, .f32⟩
  | .hbm, ⟨27, _⟩ => ⟨S2x2048x2048, .f32⟩
  | _, _ => ⟨S2x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  transposes_S2x2048x16x128_S2x16x2048x128_0_2_1_3 : S2x2048x16x128.Transposes [0, 2, 1, 3] S2x16x2048x128
  bcast_S_S2x16x2048x128 : S_.BroadcastsInDim S2x16x2048x128 (![] : Fin 0 → Fin S2x16x2048x128.rank)
  transposes_S2x2048x16x128_S2x16x128x2048_0_2_3_1 : S2x2048x16x128.Transposes [0, 2, 3, 1] S2x16x128x2048
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x16x2048x128_S2x16x128x2048_S2x16x2048x2048_3_2_2_3_01_01_wf : DotDims.WF S2x16x2048x128 S2x16x128x2048 S2x16x2048x2048 [3] [2] [2] [3] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.FiniteArgs.lean ====
/-
  The precondition read at an entry: every entry of the three argument arrays is a real number.

  The precondition is the conjunction, over the three arrays, of "every entry's absolute value is below +∞". On the
  extended reals `|x| = max x (-x)`, and `max x (-x) < ⊤` rules out both `⊤` and `⊥`, so the entry is a real.
-/
import proofs.«138931_g20246475833907_fold_wed_m_552_11_alg».proof.Pre_finite_inputs
import proofs.«138931_g20246475833907_fold_wed_m_552_11_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.FiniteArgs

/-- The word `0x7F800000` read as an extended real is `+∞`. -/
private theorem ofBits_inf : Ideal.ofBits .f32 0x7F800000#32 = (⊤ : EReal) := by
  simp [Ideal.ofBits, Ideal.ieee]

/-- A one-bit word made from a Boolean is 1 only when the Boolean is true. -/
private theorem eq_true_of_ofBool_eq_one {b : Bool} (h : BitVec.ofBool b = 1#1) : b = true := by
  cases b
  · exact absurd h (by decide)
  · rfl

/-- An extended real whose absolute value `max x (-x)` is below `+∞` is a real number: `⊤` fails the bound itself and
    `⊥` fails it through its negation. -/
private theorem real_of_abs_lt_top (x : EReal) (hx : max x (-x) < ⊤) : ∃ r : ℝ, x = (r : EReal) := by
  induction x using EReal.rec with
  | bot => simp at hx
  | coe r => exact ⟨r, rfl⟩
  | top => simp at hx

/-- One array's share of the precondition, read at an entry: if the reduction by `and` of the entrywise comparison
    "`|a i|` is below the broadcast `+∞`" is 1, every entry of `a` is a real number. -/
private theorem real_of_all [Cert.Pre_finite_inputs.Facts] (a : FVec Ideal Cert.Pre_finite_inputs.S2x2048x16x128 .f32)
    (h : Host.reduce IntOp.andi
        (cmpf .olt (Host.absf a)
          (broadcastInDim Cert.Pre_finite_inputs.S2x2048x16x128 ![] Cert.Pre_finite_inputs.Facts.bcast_S_S2x2048x16x128
            (constant (F := Ideal) Cert.Pre_finite_inputs.S_ .f32 0x7F800000#32)))
        (constantI Cert.Pre_finite_inputs.S_ 1 1#1)
        Cert.Pre_finite_inputs.Facts.reducesTo_S2x2048x16x128_S_d0_1_2_3 Cert.Pre_finite_inputs.Facts.h_S_ ValueIdx.ix0 = 1#1) :
    ∀ i, ∃ r : ℝ, a i = (r : EReal) := by
  intro i
  haveI : Subsingleton Cert.Pre_finite_inputs.S_.Idx := ⟨fun a b => funext fun d => d.elim0⟩
  have e := Host.reduce_andi_all _ _ _ _ _ h i
  -- the comparison at the entry: `max (a i) (-(a i)) < +∞`
  have e' : Ideal.cmp .olt (max (a i) (-(a i))) (Ideal.ofBits .f32 0x7F800000#32) = 1#1 := e
  rw [ofBits_inf] at e'
  exact real_of_abs_lt_top (a i) (of_decide_eq_true (eq_true_of_ofBool_eq_one e'))

/-- Under the precondition every entry of each argument array is a real number. -/
theorem real_of_pre [Cert.Pre_finite_inputs.Facts] (a0 a1 a2 : FVec Ideal Cert.Pre_finite_inputs.S2x2048x16x128 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.FiniteArgs

end
-- ==== Proof.Rows.lean ====
/-
  Rows of an attention matrix on the extended reals.

  A row of logits `x : Fin n → EReal` is turned into weights `exp (x j - max x)`; their total is `∑ j, exp (x j - max x)`.
  A weighted average of values `v` can be taken in two orders: normalise each weight by the total and then sum the
  products (`avgNormFirst`), or sum the products of the raw weights and divide the sum by the total (`avgNormLast`).
  On the extended reals multiplication does not distribute over addition at the infinities, so the two orders are not
  equal in general; for REAL logits and REAL values they are (`avgNormLast_eq_avgNormFirst`): the maximum of a
  non-empty real row is real, every weight is a positive real, the total is a positive real, and over ℝ the quotient
  leaves the sum.

  Also here: a product with a difference `k - k` of a real with itself is zero, so a sum of such products is zero
  (`sum_mul_sub_self`, `sum_sub_self_mul`): the correction terms of a value split as `hi + (x - hi)` vanish when no
  rounding happens.
-/
import Idealize.ShloMosaic.PureOps.Ideal.Laws
import Mathlib.Data.Finset.Fold

noncomputable section

open scoped BigOperators
open Idealize.ShloMosaic

namespace Cert.Rows

/-! ## Sums of real numbers read as extended reals -/

/-- A finite sum of reals, each read as an extended real, is the real sum read as an extended real. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real minus itself is zero on the extended reals. -/
theorem coe_sub_self (r : ℝ) : (r : EReal) - (r : EReal) = 0 := by
  rw [← EReal.coe_sub, sub_self, EReal.coe_zero]

/-- Products against `k - k` for real `k` sum to zero. -/
theorem sum_mul_sub_self {n : ℕ} (a : Fin n → EReal) (k : Fin n → ℝ) :
    ∑ d, a d * ((k d : EReal) - (k d : EReal)) = 0 :=
  Finset.sum_eq_zero fun d _ => by rw [coe_sub_self, mul_zero]

/-- Products of `a - a` for real `a` against anything sum to zero. -/
theorem sum_sub_self_mul {n : ℕ} (a : Fin n → ℝ) (k : Fin n → EReal) :
    ∑ d, ((a d : EReal) - (a d : EReal)) * k d = 0 :=
  Finset.sum_eq_zero fun d _ => by rw [coe_sub_self, zero_mul]

/-- A scaled dot product of real rows is real: `∑ d, (a d · c) · b d`. -/
theorem sum_mul_mul_coe {n : ℕ} (a b : Fin n → ℝ) (c : ℝ) :
    ∑ d, ((a d : EReal) * (c : EReal)) * (b d : EReal) = ((∑ d, a d * c * b d : ℝ) : EReal) := by
  rw [← coe_sum]
  exact Finset.sum_congr rfl fun d _ => by rw [EReal.coe_mul, EReal.coe_mul]

/-! ## A row's maximum, weights and total -/

/-- The maximum of a row, from `-∞`. -/
def rowMax {n : ℕ} (x : Fin n → EReal) : EReal := (Finset.univ : Finset (Fin n)).fold max ⊥ x

/-- The weight of entry `j`: the exponential of its distance below the row's maximum. -/
def rowWeight {n : ℕ} (x : Fin n → EReal) (j : Fin n) : EReal := Ideal.exp (x j - rowMax x)

/-- The total weight of the row. -/
def rowTotal {n : ℕ} (x : Fin n → EReal) : EReal := ∑ j, rowWeight x j

/-- Normalise each weight, then average the values. -/
def avgNormFirst {n : ℕ} (x v : Fin n → EReal) : EReal :=
  ∑ j, Ideal.div (rowWeight x j) (rowTotal x) * v j

/-- Average the values by the raw weights, then normalise. -/
def avgNormLast {n : ℕ} (x v : Fin n → EReal) : EReal :=
  Ideal.div (∑ j, rowWeight x j * v j) (rowTotal x)

/-- The maximum of a non-empty row of reals is a real. -/
theorem rowMax_coe {n : ℕ} (hn : 0 < n) (x : Fin n → ℝ) :
    ∃ r : ℝ, rowMax (fun j => (x j : EReal)) = (r : EReal) := by
  have htop : rowMax (fun j => (x j : EReal)) ≠ ⊤ :=
    ne_of_lt ((Finset.fold_max_lt ⊤).mpr ⟨bot_lt_top, fun j _ => EReal.coe_lt_top _⟩)
  have hbot : rowMax (fun j => (x j : EReal)) ≠ ⊥ :=
    ne_of_gt ((Finset.lt_fold_max ⊥).mpr (Or.inr ⟨⟨0, hn⟩, Finset.mem_univ _, EReal.bot_lt_coe _⟩))
  exact ⟨_, (EReal.coe_toReal htop hbot).symm⟩

/-- Over the reals the quotient by a non-zero total leaves the sum. -/
theorem sum_div_mul_coe {n : ℕ} (p v : Fin n → ℝ) (s : ℝ) (hs : s ≠ 0) :
    ∑ j, Ideal.div (p j : EReal) (s : EReal) * (v j : EReal)
      = Ideal.div (∑ j, (p j : EReal) * (v j : EReal)) (s : EReal) := by
  have h1 : ∀ j, Ideal.div (p j : EReal) (s : EReal) * (v j : EReal) = ((p j * (1 / s) * v j : ℝ) : EReal) := fun j => by
    rw [Ideal.div_coe hs, ← EReal.coe_mul, ← EReal.coe_mul]
  have h2 : ∀ j, (p j : EReal) * (v j : EReal) = ((p j * v j : ℝ) : EReal) := fun j => (EReal.coe_mul _ _).symm
  simp only [h1, h2]
  rw [Ideal.div_coe hs, coe_sum, coe_sum, ← EReal.coe_mul, Finset.sum_mul]
  exact congrArg _ (Finset.sum_congr rfl fun j _ => by ring)

/-- For a non-empty row of REAL logits and REAL values the two orders of normalising agree. -/
theorem avgNormLast_eq_avgNormFirst {n : ℕ} (hn : 0 < n) (x v : Fin n → ℝ) :
    avgNormLast (fun j => (x j : EReal)) (fun j => (v j : EReal))
      = avgNormFirst (fun j => (x j : EReal)) (fun j => (v j : EReal)) := by
  obtain ⟨M, hM⟩ := rowMax_coe hn x
  have hw : ∀ j, rowWeight (fun j => (x j : EReal)) j = ((Real.exp (x j - M) : ℝ) : EReal) := fun j => by
    unfold rowWeight
    rw [hM, ← EReal.coe_sub, Ideal.exp_coe]
  have ht : rowTotal (fun j => (x j : EReal)) = ((∑ j, Real.exp (x j - M) : ℝ) : EReal) := by
    unfold rowTotal
    simp only [hw]
    exact coe_sum _ _
  have hs : (∑ j : Fin n, Real.exp (x j - M)) ≠ 0 :=
    ne_of_gt (Finset.sum_pos (fun j _ => Real.exp_pos _) ⟨⟨0, hn⟩, Finset.mem_univ _⟩)
  unfold avgNormLast avgNormFirst
  simp only [hw, ht]
  exact (sum_div_mul_coe _ v _ hs).symm

end Cert.Rows

end
-- ==== Proof.Attention.lean ====
/-
  Full attention over [batch 2, position 2048, head 16, feature 128], index by index.

  For a batch `b`, a head `h`, a query position `i` and a key position `j` the LOGIT is the dot product over the 128
  features of the scaled query row `q[b, i, h, ·] · c` with the key row `k[b, j, h, ·]`. The first result, the SCORE array
  [2, 16, 2048, 2048], holds the logits' absolute values. The second result [2, 2048, 2048] holds, at row `i` and column
  `h · 128 + d`, the soft-max-weighted average over `j` of the values `v[b, j, h, d]`, the weights of row `i` normalised
  before the average is taken (`Cert.Rows.avgNormFirst`).

  `attended_of_real`: for real arguments and a real scale, averaging first and normalising last gives the same array.
  `logit_split`: for real arguments, adding to a logit the two correction sums of a splitting `x = hi + (x - hi)` in
  which `hi = x` changes nothing.
-/
import proofs.«138931_g20246475833907_fold_wed_m_552_11_alg».proof.Proof.Rows
import Idealize.ShloMosaic.Lib.ValueIdx

noncomputable section

open scoped BigOperators
open Idealize.ShloMosaic Idealize.ShloMosaic.ValueIdx Cert.Rows

namespace Cert.Attn

/-- An argument array: [batch, position, head, feature]. -/
abbrev Arg : Type := (⟨4, ![2, 2048, 16, 128]⟩ : Shape).Idx → EReal

/-- The logit of query position `i` against key position `j`, in head `h` of batch `b`. -/
def logit (q k : Arg) (c : EReal) (b : Fin 2) (h : Fin 16) (i j : Fin 2048) : EReal :=
  ∑ d : Fin 128, (q (ix4 b i h d) * c) * k (ix4 b j h d)

/-- The score array: the logits' absolute values, laid out [batch, head, query, key]. -/
def score (q k : Arg) (c : EReal) : (⟨4, ![2, 16, 2048, 2048]⟩ : Shape).Idx → EReal :=
  fun y => max (logit q k c (y 0) (y 1) (y 2) (y 3)) (-(logit q k c (y 0) (y 1) (y 2) (y 3)))

/-- The head a column of the [2, 2048, 2048] result belongs to … -/
def headOf (col : Fin 2048) : Fin 16 := ⟨col.val / 128, by have := col.isLt; omega⟩
/-- … and the feature inside that head. -/
def featOf (col : Fin 2048) : Fin 128 := ⟨col.val % 128, Nat.mod_lt _ (by decide)⟩

/-- The attended values, laid out [batch, query, head · 128 + feature]: weights normalised, then averaged. -/
def attended (q k v : Arg) (c : EReal) : (⟨3, ![2, 2048, 2048]⟩ : Shape).Idx → EReal :=
  fun y => avgNormFirst (fun j => logit q k c (y 0) (headOf (y 2)) (y 1) j)
    (fun j => v (ix4 (y 0) j (headOf (y 2)) (featOf (y 2))))

/-- The same with the average taken over the raw weights and normalised last. -/
def attendedLast (q k v : Arg) (c : EReal) : (⟨3, ![2, 2048, 2048]⟩ : Shape).Idx → EReal :=
  fun y => avgNormLast (fun j => logit q k c (y 0) (headOf (y 2)) (y 1) j)
    (fun j => v (ix4 (y 0) j (headOf (y 2)) (featOf (y 2))))

/-- A logit of real arrays under a real scale is real. -/
theorem logit_coe (q k : (⟨4, ![2, 2048, 16, 128]⟩ : Shape).Idx → ℝ) (c : ℝ) (b : Fin 2) (h : Fin 16) (i j : Fin 2048) :
    logit (fun y => (q y : EReal)) (fun y => (k y : EReal)) (c : EReal) b h i j
      = ((∑ d : Fin 128, q (ix4 b i h d) * c * k (ix4 b j h d) : ℝ) : EReal) :=
  sum_mul_mul_coe (fun d => q (ix4 b i h d)) (fun d => k (ix4 b j h d)) c

/-- For real arguments the two orders of normalising give one array. -/
theorem attendedLast_of_real (q k v : (⟨4, ![2, 2048, 16, 128]⟩ : Shape).Idx → ℝ) (c : ℝ) :
    attendedLast (fun y => (q y : EReal)) (fun y => (k y : EReal)) (fun y => (v y : EReal)) (c : EReal)
      = attended (fun y => (q y : EReal)) (fun y => (k y : EReal)) (fun y => (v y : EReal)) (c : EReal) := by
  funext y
  unfold attendedLast attended
  simp only [logit_coe]
  exact avgNormLast_eq_avgNormFirst (by decide) _ _

/-- The logit with the two correction sums of a hi/lo splitting whose hi part is the value itself: for real arguments
    the corrections are sums of products with zero. -/
theorem logit_split (q k : (⟨4, ![2, 2048, 16, 128]⟩ : Shape).Idx → ℝ) (c : ℝ) (b : Fin 2) (h : Fin 16) (i j : Fin 2048) :
    (∑ d : Fin 128, ((q (ix4 b i h d) : EReal) * (c : EReal)) * (k (ix4 b j h d) : EReal)
        + ∑ d : Fin 128, ((q (ix4 b i h d) : EReal) * (c : EReal)) * ((k (ix4 b j h d) : EReal) - (k (ix4 b j h d) : EReal)))
      + ∑ d : Fin 128, (((q (ix4 b i h d) : EReal) * (c : EReal)) - ((q (ix4 b i h d) : EReal) * (c : EReal))) * (k (ix4 b j h d) : EReal)
      = logit (fun y => (q y : EReal)) (fun y => (k y : EReal)) (c : EReal) b h i j := by
  have h2 := sum_mul_sub_self (fun d : Fin 128 => (q (ix4 b i h d) : EReal) * (c : EReal)) (fun d => k (ix4 b j h d))
  have h3 := sum_sub_self_mul (fun d : Fin 128 => q (ix4 b i h d) * c) (fun d : Fin 128 => (k (ix4 b j h d) : EReal))
  simp only [EReal.coe_mul] at h3
  rw [h2, h3, add_zero, add_zero]
  rfl

end Cert.Attn

end
-- ==== Proof.RefValue.lean ====
/-
  The reference's two results are the specification's arrays.

  Read one operation at a time: the logits stage at [b, h, i, j] is the dot product over the features of the scaled
  query row with the key row (the transposes only permute coordinates); the row maximum is the fold of `max` from `-∞`
  over the key positions (joined once more with `-∞`, which changes nothing); the weights are the exponentials of the
  distances below it; the total is their sum from zero; the attended value is the sum over the key positions of the
  normalised weight times the value, and the final transpose and reshape send [b, i, h · 128 + d] to [b, h, i, d].
-/
import proofs.«138931_g20246475833907_fold_wed_m_552_11_alg».proof.Proof.Gen.ReferenceIdeal.Read
import proofs.«138931_g20246475833907_fold_wed_m_552_11_alg».proof.Proof.Attention

noncomputable section

open scoped BigOperators
open Idealize.ShloMosaic Idealize.ShloMosaic.ValueIdx Cert.Rows Cert.Attn
open Cert.ReferenceIdeal Cert.ReferenceIdeal.Gen Cert.ReferenceIdeal.Read

namespace Cert.ReferenceIdeal.RefValue

/-- The scale `f32 (√128)` as an extended real. -/
abbrev scale : EReal := Ideal.ofBits .f32 0x413504F3#32

/-- The word `0xFF800000` is `-∞`. -/
theorem ofBits_neg_inf : Ideal.ofBits .f32 0xFF800000#32 = ⊥ := by simp [Ideal.ofBits, Ideal.ieee]

/-- The key axis of [2, 16, 2048, 2048] reduces onto [2, 16, 2048]. -/
theorem reduces_keys : S2x16x2048x2048.Reduces [3] S2x16x2048 := by decide

/-- A maximum over the key axis, read at [b, h, i]: the fold of `max` over the row's entries. -/
theorem reduce_max_at (x : FVec Ideal S2x16x2048x2048 .f32) (init : FVec Ideal S_ .f32)
    (b : Fin 2) (h : Fin 16) (i : Fin 2048) :
    Host.reduce (FloatOps.maximumf (F := Ideal) (φ := .f32)) x init reducesTo_S2x16x2048x2048_S2x16x2048_d3 h_S_ (ix3 b h i)
      = (Finset.univ : Finset (Fin 2048)).fold max (init (Shape.Idx.first h_S_)) (fun j => x (ix4 b h i j)) := by
  refine (Host.reduce_eq_fold_single (FloatOps.maximumf (F := Ideal) (φ := .f32)) x init reducesTo_S2x16x2048x2048_S2x16x2048_d3 reduces_keys h_S_ (ix3 b h i)).trans ?_
  have e : x ∘ reduces_keys.lift (ix3 b h i) = fun j => x (ix4 b h i j) := funext fun j => congrArg x (funext fun a => Fin.ext (by
    match a with | ⟨0, _⟩ => rfl | ⟨1, _⟩ => rfl | ⟨2, _⟩ => rfl | ⟨3, _⟩ => rfl))
  rw [e]
  rfl

variable (q k v : (⟨S2x2048x16x128, .f32⟩ : BufTy).Contents (Elt Ideal))

/-- The logits stage at [b, h, i, j]. -/
theorem logits_at (b : Fin 2) (h : Fin 16) (i j : Fin 2048) :
    val_main_v5 (F := Ideal) q k (ix4 b h i j) = logit q k scale b h i j := by
  rw [val_main_v5_apply]
  unfold logit
  refine Finset.sum_congr rfl fun d _ => ?_
  rw [val_main_v2_apply, val_main_v0_apply, val_main_v1_apply, val_main_cst_apply, val_main_v4_apply]
  have e1 : idx_main_v0 (lidx_main_v5 (ix4 b h i j) d) = ix4 b i h d := funext fun a => Fin.ext (by
    match a with | ⟨0, _⟩ => rfl | ⟨1, _⟩ => rfl | ⟨2, _⟩ => rfl | ⟨3, _⟩ => rfl)
  have e2 : idx_main_v4 (ridx_main_v5 (ix4 b h i j) d) = ix4 b j h d := funext fun a => Fin.ext (by
    match a with | ⟨0, _⟩ => rfl | ⟨1, _⟩ => rfl | ⟨2, _⟩ => rfl | ⟨3, _⟩ => rfl)
  rw [e1, e2]
  rfl

/-- The row maximum at [b, h, i]. -/
theorem rowMax_at (b : Fin 2) (h : Fin 16) (i : Fin 2048) :
    val_main_v9 (F := Ideal) q k (ix3 b h i) = rowMax (fun j => logit q k scale b h i j) := by
  rw [val_main_v9_apply, val_main_v8_apply, val_main_cst_1_apply]
  unfold val_main_v7
  refine (congrArg (max (Ideal.ofBits .f32 0xFF800000#32)) (reduce_max_at (val_main_v5 (F := Ideal) q k) (val_main_cst_0 (F := Ideal)) b h i)).trans ?_
  simp only [logits_at]
  show max (Ideal.ofBits .f32 0xFF800000#32) (Finset.fold max (Ideal.ofBits .f32 0xFF800000#32) _ _) = _
  rw [ofBits_neg_inf, max_eq_right bot_le]
  rfl

/-- The weight at [b, h, i, j]. -/
theorem weight_at (b : Fin 2) (h : Fin 16) (i j : Fin 2048) :
    val_main_v13 (F := Ideal) q k (ix4 b h i j) = rowWeight (fun j => logit q k scale b h i j) j := by
  rw [val_main_v13_apply, val_main_v12_apply, val_main_v11_apply, val_main_v10_apply]
  have e : idx_main_v10 (idx_main_v11 (ix4 b h i j)) = ix3 b h i := funext fun a => Fin.ext (by
    match a with | ⟨0, _⟩ => rfl | ⟨1, _⟩ => rfl | ⟨2, _⟩ => rfl)
  rw [e, rowMax_at, logits_at]
  rfl

/-- The total weight at [b, h, i]. -/
theorem total_at (b : Fin 2) (h : Fin 16) (i : Fin 2048) :
    val_main_v14 (F := Ideal) q k (ix3 b h i) = rowTotal (fun j => logit q k scale b h i j) := by
  rw [val_main_v14_apply, val_main_cst_2_apply]
  have e : ∀ j : Fin 2048, idx_main_v14 (ix3 b h i) j = ix4 b h i j := fun j => funext fun a => Fin.ext (by
    match a with | ⟨0, _⟩ => rfl | ⟨1, _⟩ => rfl | ⟨2, _⟩ => rfl | ⟨3, _⟩ => rfl)
  simp only [e, weight_at]
  show Ideal.ofBits .f32 0x00000000#32 + _ = _
  rw [Ideal.ofBits_zero_f32, zero_add]
  rfl

/-- The normalised weight at [b, h, i, j]. -/
theorem normalised_at (b : Fin 2) (h : Fin 16) (i j : Fin 2048) :
    val_main_v17 (F := Ideal) q k (ix4 b h i j)
      = Ideal.div (rowWeight (fun j => logit q k scale b h i j) j) (rowTotal (fun j => logit q k scale b h i j)) := by
  rw [val_main_v17_apply, val_main_v16_apply, val_main_v15_apply]
  have e : idx_main_v15 (idx_main_v16 (ix4 b h i j)) = ix3 b h i := funext fun a => Fin.ext (by
    match a with | ⟨0, _⟩ => rfl | ⟨1, _⟩ => rfl | ⟨2, _⟩ => rfl)
  rw [e, total_at, weight_at]
  rfl

/-- THE SCORE RESULT is the specification's. -/
theorem score_eq : val_main_v6 (F := Ideal) q k = score q k scale := by
  funext y
  obtain ⟨b, h, i, j, rfl⟩ : ∃ (b : Fin 2) (h : Fin 16) (i j : Fin 2048), y = ix4 b h i j := ⟨y 0, y 1, y 2, y 3, eq_ix4 y⟩
  rw [val_main_v6_apply, logits_at]
  rfl

/-- THE ATTENDED RESULT is the specification's. -/
theorem attended_eq : val_main_v20 (F := Ideal) q k v = attended q k v scale := by
  funext y
  rw [val_main_v20_apply, val_main_v19_apply, val_main_v18_apply]
  unfold attended avgNormFirst
  refine Finset.sum_congr rfl fun j _ => ?_
  have hy0 : (y 0).val < 2 := (y 0).isLt
  have hy1 : (y 1).val < 2048 := (y 1).isLt
  have hy2 : (y 2).val < 2048 := (y 2).isLt
  have el : lidx_main_v18 (idx_main_v19 (idx_main_v20 y)) j = ix4 (y 0) (headOf (y 2)) (y 1) j := funext fun a => Fin.ext (by
    match a with
    | ⟨0, _⟩ => show (((y 0).val * 2048 + (y 1).val) * 2048 + (y 2).val) / 4194304 = (y 0).val; omega
    | ⟨1, _⟩ => show (((y 0).val * 2048 + (y 1).val) * 2048 + (y 2).val) / 128 % 16 = (y 2).val / 128; omega
    | ⟨2, _⟩ => show (((y 0).val * 2048 + (y 1).val) * 2048 + (y 2).val) / 2048 % 2048 = (y 1).val; omega
    | ⟨3, _⟩ => rfl)
  have er : idx_main_v3 (ridx_main_v18 (idx_main_v19 (idx_main_v20 y)) j) = ix4 (y 0) j (headOf (y 2)) (featOf (y 2)) := funext fun a => Fin.ext (by
    match a with
    | ⟨0, _⟩ => show (((y 0).val * 2048 + (y 1).val) * 2048 + (y 2).val) / 4194304 = (y 0).val; omega
    | ⟨1, _⟩ => rfl
    | ⟨2, _⟩ => show (((y 0).val * 2048 + (y 1).val) * 2048 + (y 2).val) / 128 % 16 = (y 2).val / 128; omega
    | ⟨3, _⟩ => show (((y 0).val * 2048 + (y 1).val) * 2048 + (y 2).val) % 128 = (y 2).val % 128; omega)
  rw [val_main_v3_apply, el, er]
  exact congrArg (· * v (ix4 (y 0) j (headOf (y 2)) (featOf (y 2)))) (normalised_at q k (y 0) (headOf (y 2)) (y 1) j)

end Cert.ReferenceIdeal.RefValue

end
-- ==== Proof.KernelInputs.lean ====
/-
  What the kernel region finds in its five input arrays, as functions of the three arguments.

  Before the region the host reshapes each argument [2, 2048, 16, 128] to [2, 2048, 2048] (column `h · 128 + d` is head
  `h`, feature `d`), scales the query by `f32 (√128)`, and splits the scaled query and the key into a hi part (the value
  narrowed to sixteen bits) and a lo part (the value minus its widened hi part, narrowed). At the ideal values a change
  of format is the identity, so the hi part is the value itself and the lo part is the value minus itself.
-/
import proofs.«138931_g20246475833907_fold_wed_m_552_11_alg».proof.Proof.Gen.KernelIdeal.Frame
import proofs.«138931_g20246475833907_fold_wed_m_552_11_alg».proof.Proof.Attention
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem
open Cert.KernelIdeal Cert.KernelIdeal.Gen Cert.Attn

namespace Cert.KernelIdeal.Inputs

variable (m : (ℓ : Loc nD τ sig) → Buf (Elt Ideal) ℓ)

/-- The three argument arrays as launched, at their literal type. -/
abbrev argQ (c : Dev nD) : Arg := m ((c : Thread nD τ).loc main_arg0)
abbrev argK (c : Dev nD) : Arg := m ((c : Thread nD τ).loc main_arg1)
abbrev argV (c : Dev nD) : Arg := m ((c : Thread nD τ).loc main_arg2)

/-- The index [b, i, h, d] of the argument that entry [b, i, h · 128 + d] of a reshaped array comes from. -/
abbrev unflat (y : (⟨3, ![2, 2048, 2048]⟩ : Shape).Idx) : (⟨4, ![2, 2048, 16, 128]⟩ : Shape).Idx :=
  ix4 (y 0) (y 1) (headOf (y 2)) (featOf (y 2))

/-- The scale `f32 (√128)` as an extended real. -/
abbrev scale : EReal := Ideal.ofBits .f32 0x413504F3#32

/-- The reshape [2, 2048, 16, 128] → [2, 2048, 2048] read at an entry: entry [b, i, col] of the reshaped array is entry
    [b, i, col / 128, col % 128] of the operand, the two having the same row-major position. -/
private theorem reshape_apply (a : Arg) (y : (⟨3, ![2, 2048, 2048]⟩ : Shape).Idx) :
    shapeCast S2x2048x2048 a shapeCasts_S2x2048x16x128_S2x2048x2048 y = a (unflat y) := by
  refine shapeCast_apply a shapeCasts_S2x2048x16x128_S2x2048x2048 y (unflat y) ?_
  rewrite [Shape.rowMajor_val_four, Shape.rowMajor_val_three]
  have h0 : (y 0).val < 2 := (y 0).isLt
  have h1 : (y 1).val < 2048 := (y 1).isLt
  have h2 : (y 2).val < 2048 := (y 2).isLt
  show (((y 0).val * 2048 + (y 1).val) * 16 + (y 2).val / 128) * 128 + (y 2).val % 128
    = ((y 0).val * 2048 + (y 1).val) * 2048 + (y 2).val
  omega

/-- The scaled, reshaped query at an entry: the reshape is read at the entry's source index, the broadcast constant is
    the scale everywhere, and the product is entrywise. -/
private theorem scaled_apply (a : Arg) (y : (⟨3, ![2, 2048, 2048]⟩ : Shape).Idx) :
    (mulf (shapeCast S2x2048x2048 a shapeCasts_S2x2048x16x128_S2x2048x2048 : FVec Ideal S2x2048x2048 .f32)
      (broadcastInDim S2x2048x2048 ![] bcast_S_S2x2048x2048 (constant (F := Ideal) S_ .f32 0x413504F3#32))) y
      = a (unflat y) * scale := by
  show shapeCast S2x2048x2048 a shapeCasts_S2x2048x16x128_S2x2048x2048 y * scale = _
  rw [reshape_apply]

/-- The query's hi part: the scaled query. -/
theorem qhi_eq (c : Dev nD) :
    (V m c main_v5 : (⟨3, ![2, 2048, 2048]⟩ : Shape).Idx → EReal) = fun y => argQ m c (unflat y) * scale := by
  have e : (V m c main_v5 : S2x2048x2048.Idx → EReal)
      = truncf .bf16 (mulf (shapeCast S2x2048x2048 (m ((c : Thread nD τ).loc main_arg0)) shapeCasts_S2x2048x16x128_S2x2048x2048)
          (broadcastInDim S2x2048x2048 ![] bcast_S_S2x2048x2048 (constant (F := Ideal) S_ .f32 0x413504F3#32))) bitsLt_bf16_f32 := by
    dsimp only [Gen.V, Gen.hostOps0]; after_results; rfl
  -- narrowing is the identity on extended reals
  exact e.trans (funext fun y => scaled_apply (argQ m c) y)

/-- The query's lo part: the scaled query minus itself. -/
theorem qlo_eq (c : Dev nD) :
    (V m c main_v8 : (⟨3, ![2, 2048, 2048]⟩ : Shape).Idx → EReal)
      = fun y => argQ m c (unflat y) * scale - argQ m c (unflat y) * scale := by
  have e : (V m c main_v8 : S2x2048x2048.Idx → EReal)
      = truncf .bf16 (subf
          (mulf (shapeCast S2x2048x2048 (m ((c : Thread nD τ).loc main_arg0)) shapeCasts_S2x2048x16x128_S2x2048x2048)
            (broadcastInDim S2x2048x2048 ![] bcast_S_S2x2048x2048 (constant (F := Ideal) S_ .f32 0x413504F3#32)))
          (extf .f32 (truncf .bf16
            (mulf (shapeCast S2x2048x2048 (m ((c : Thread nD τ).loc main_arg0)) shapeCasts_S2x2048x16x128_S2x2048x2048)
              (broadcastInDim S2x2048x2048 ![] bcast_S_S2x2048x2048 (constant (F := Ideal) S_ .f32 0x413504F3#32)))
            bitsLt_bf16_f32) bitsLt_bf16_f32)) bitsLt_bf16_f32 := by
    dsimp only [Gen.V, Gen.hostOps0]; after_results; rfl
  -- narrowing and widening are the identity on extended reals, the difference is entrywise
  refine e.trans (funext fun y => ?_)
  exact congrArg₂ (· - ·) (scaled_apply (argQ m c) y) (scaled_apply (argQ m c) y)

/-- The key's hi part: the key. -/
theorem khi_eq (c : Dev nD) :
    (V m c main_v9 : (⟨3, ![2, 2048, 2048]⟩ : Shape).Idx → EReal) = fun y => argK m c (unflat y) := by
  have e : (V m c main_v9 : S2x2048x2048.Idx → EReal)
      = truncf (F := Ideal) .bf16
          (shapeCast S2x2048x2048 (m ((c : Thread nD τ).loc main_arg1)) shapeCasts_S2x2048x16x128_S2x2048x2048)
          bitsLt_bf16_f32 := by
    dsimp only [Gen.V, Gen.hostOps0]; after_results; rfl
  exact e.trans (funext fun y => reshape_apply (argK m c) y)

/-- The key's lo part: the key minus itself. -/
theorem klo_eq (c : Dev nD) :
    (V m c main_v12 : (⟨3, ![2, 2048, 2048]⟩ : Shape).Idx → EReal) = fun y => argK m c (unflat y) - argK m c (unflat y) := by
  have e : (V m c main_v12 : S2x2048x2048.Idx → EReal)
      = truncf (F := Ideal) .bf16 (subf
          (shapeCast S2x2048x2048 (m ((c : Thread nD τ).loc main_arg1)) shapeCasts_S2x2048x16x128_S2x2048x2048)
          (extf .f32 (truncf .bf16
            (shapeCast S2x2048x2048 (m ((c : Thread nD τ).loc main_arg1)) shapeCasts_S2x2048x16x128_S2x2048x2048)
            bitsLt_bf16_f32) bitsLt_bf16_f32)) bitsLt_bf16_f32 := by
    dsimp only [Gen.V, Gen.hostOps0]; after_results; rfl
  refine e.trans (funext fun y => ?_)
  exact congrArg₂ (· - ·) (reshape_apply (argK m c) y) (reshape_apply (argK m c) y)

/-- The values, reshaped. -/
theorem val_eq (c : Dev nD) :
    (V m c main_v4 : (⟨3, ![2, 2048, 2048]⟩ : Shape).Idx → EReal) = fun y => argV m c (unflat y) := by
  have e : (V m c main_v4 : S2x2048x2048.Idx → EReal)
      = shapeCast S2x2048x2048 (m ((c : Thread nD τ).loc main_arg2)) shapeCasts_S2x2048x16x128_S2x2048x2048 := by
    dsimp only [Gen.V, Gen.hostOps0]; after_results; rfl
  exact e.trans (funext fun y => reshape_apply (argV m c) y)

end Cert.KernelIdeal.Inputs

end
-- ==== Proof.Payload.lean ====
/-
  The kernel body's arithmetic read at an index, at the ideal values, over arbitrary blocks.

  `logits_apply`: entry (r, j) of the logits block is the sum of three dot products over the 128 features: the hi query
  row against the hi key row, the hi query row against the lo key row, and the lo query row against the hi key row.
  `attended_apply`: entry (r, d) of the output block is the average of the value block's column `d` under the soft-max
  weights of logits row `r`, normalised after the average is taken (`Cert.Rows.avgNormLast`).

  Above them, one small fact per operation that is not elementwise, each read at an index given by its coordinates: the
  two contractions (rows against rows for the logits, rows against columns for the weighted values) as sums over the
  contracted coordinate; the maximum and the sum along a row as a fold and a sum over the row's columns; the cast of a
  vector to a one-column matrix and the broadcast of a one-column matrix along the rows.
-/
import proofs.«138931_g20246475833907_fold_wed_m_552_11_alg».proof.Proof.Gen.KernelIdeal.Skeleton
import proofs.«138931_g20246475833907_fold_wed_m_552_11_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.Rows
open Cert.KernelIdeal Cert.KernelIdeal.Gen

namespace Cert.KernelIdeal.Payload

/-! ## The query-key contraction: rows of the left block against rows of the right block -/

/-- Left operand, row axis: the output's row. -/
private theorem lhs_qk_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- Left operand, feature axis: the contraction's coordinate. -/
private theorem lhs_qk_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- Right operand, row axis: the output's column. -/
private theorem rhs_qk_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- Right operand, feature axis: the contraction's coordinate. -/
private theorem rhs_qk_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The product of a [1024,128] block with the transpose of a [2048,128] block, accumulated into zero, at (r, j):
    the dot product of row r of the first with row j of the second. -/
private theorem matmul_qk_apply (a : FVec Ideal S1024x128 .bf16) (b : FVec Ideal S2048x128 .bf16) (r : Fin 1024) (j : Fin 2048) :
    matmul dot_S1024x128_S2048x128_S1024x2048_1_1_0_0_n_n none a b (constant (F := Ideal) S1024x2048 .f32 0x00000000#32) (ix2 r j)
      = ∑ d : Fin 128, a (ix2 r d) * b (ix2 j d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r j) ((ValueIdx.contrEquiv1 dot_S1024x128_S2048x128_S1024x2048_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S1024x128_S2048x128_S1024x2048_1_1_0_0_n_n.rhsIdx (ix2 r j) ((ValueIdx.contrEquiv1 dot_S1024x128_S2048x128_S1024x2048_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er]

/-- Entry (r, j) of the logits block. -/
theorem logits_apply (x0 x1 : Vec Ideal S1x1024x128 .bf16) (x2 x3 : Vec Ideal S1x2048x128 .bf16) (r : Fin 1024) (j : Fin 2048) :
    k0_pay2 (F := Ideal) x0 x1 x2 x3 (ix2 r j)
      = (∑ d : Fin 128, x0 (ix3 0 r d) * x2 (ix3 0 j d) + ∑ d : Fin 128, x0 (ix3 0 r d) * x3 (ix3 0 j d))
        + ∑ d : Fin 128, x1 (ix3 0 r d) * x2 (ix3 0 j d) := by
  unfold Gen.k0_pay2
  simp only [addf_apply, matmul_qk_apply, shapeCast_1ab_ab_apply]

/-! ## The weights-values contraction: rows of the left block against columns of the right block -/

/-- Left operand, row axis: the output's row. -/
private theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- Left operand, column axis: the contraction's coordinate. -/
private theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- Right operand, row axis: the contraction's coordinate. -/
private theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- Right operand, column axis: the output's column. -/
private theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of a [1024,2048] block with a [2048,128] block, accumulated into zero, at (r, d): the dot product of
    row r of the first with column d of the second. -/
private theorem matmul_pv_apply (a : FVec Ideal S1024x2048 .f32) (b : FVec Ideal S2048x128 .f32) (r : Fin 1024) (d : Fin 128) :
    matmul dot_S1024x2048_S2048x128_S1024x128_1_0_0_1_n_n none a b (constant (F := Ideal) S1024x128 .f32 0x00000000#32) (ix2 r d)
      = ∑ k : Fin 2048, a (ix2 r k) * b (ix2 k d) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r d) ((ValueIdx.contrEquiv1 dot_S1024x2048_S2048x128_S1024x128_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x128_S1024x128_1_0_0_1_n_n.rhsIdx (ix2 r d) ((ValueIdx.contrEquiv1 dot_S1024x2048_S2048x128_S1024x128_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## Reductions along a row, and the column a reduction's result is kept in -/

/-- The index of a [1024,2048] block over row r with column k put back. -/
private theorem lift_row (r : Fin 1024) (k : Fin 2048) :
    reduces_S1024x2048_S1024.lift (ix1 r) k = ix2 r k :=
  funext fun a => Fin.ext (by
    match a with
    | ⟨0, _⟩ => rfl
    | ⟨1, _⟩ => rfl)

/-- The bit pattern the row maximum starts from is -∞. -/
private theorem ofBits_neg_inf : Ideal.ofBits .f32 0xFF800000#32 = ⊥ := by simp [Ideal.ofBits, Ideal.ieee]

/-- The maximum along row r of a [1024,2048] block, from -∞. -/
private theorem rowmax_apply (X : FVec Ideal S1024x2048 .f32) (hφ : FKind.Formats .f32)
    (hacc : (0xFF800000#32 : BitVec 32) = 0xFF800000#32) (r : Fin 1024) :
    multiReduction (F := Ideal) .maximumf [1] S1024 X 0xFF800000#32 reduces_S1024x2048_S1024 hφ hacc (ix1 r)
      = rowMax (fun j : Fin 2048 => X (ix2 r j)) := by
  refine (Ideal.multiReduction_maximumf_single X 0xFF800000#32 reduces_S1024x2048_S1024 hφ hacc (ix1 r)).trans ?_
  unfold rowMax
  show (Finset.univ : Finset (Fin 2048)).fold max (Ideal.ofBits .f32 0xFF800000#32) (X ∘ reduces_S1024x2048_S1024.lift (ix1 r)) = _
  rw [ofBits_neg_inf]
  exact congrArg (fun f => (Finset.univ : Finset (Fin 2048)).fold max ⊥ f) (funext fun k => congrArg X (lift_row r k))

/-- The sum along row r of a [1024,2048] block, from zero. -/
private theorem rowsum_apply (Y : FVec Ideal S1024x2048 .f32) (hφ : FKind.Formats .f32)
    (hacc : (0x00000000#32 : BitVec 32) = 0x00000000#32) (r : Fin 1024) :
    multiReduction (F := Ideal) .add [1] S1024 Y 0x00000000#32 reduces_S1024x2048_S1024 hφ hacc (ix1 r)
      = ∑ k : Fin 2048, Y (ix2 r k) := by
  refine (Ideal.multiReduction_add_single Y 0x00000000#32 reduces_S1024x2048_S1024 hφ hacc (ix1 r)).trans ?_
  show ∑ k : Fin 2048, Y (reduces_S1024x2048_S1024.lift (ix1 r) k) = _
  exact Finset.sum_congr rfl fun k _ => congrArg Y (lift_row r k)

/-- An [a] array cast to [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An [a, 1] array broadcast to [a, b] reads, at (p, c), the operand's row p at its one column. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element. -/
private theorem exp_apply {s : Shape} {φ : FTy} (v : FVec Ideal s φ) (i : s.Idx) : exp v i = Ideal.exp (v i) := rfl

/-- Entry (r, d) of the output block. -/
theorem attended_apply (x0 x1 : Vec Ideal S1x1024x128 .bf16) (x2 x3 : Vec Ideal S1x2048x128 .bf16) (x4 : Vec Ideal S1x2048x128 .f32)
    (r : Fin 1024) (d : Fin 128) :
    k0_pay4 (F := Ideal) x0 x1 x2 x3 x4 (ix2 r d)
      = avgNormLast (fun j : Fin 2048 => k0_pay2 (F := Ideal) x0 x1 x2 x3 (ix2 r j)) (fun j : Fin 2048 => x4 (ix3 0 j d)) := by
  unfold Gen.k0_pay4
  generalize k0_pay2 (F := Ideal) x0 x1 x2 x3 = X
  unfold avgNormLast rowTotal rowWeight
  simp only [divf_apply, matmul_pv_apply, broadcastTo_a1_ab_apply, shapeCast_a_a1_apply,
    exp_apply, subf_apply, shapeCast_1ab_ab_apply]
  rw [rowmax_apply X _ _ r, rowsum_apply _ _ _ r]
  simp only [broadcastTo_a1_ab_apply, shapeCast_a_a1_apply, exp_apply, subf_apply]
  rw [rowmax_apply X _ _ r]

end Cert.KernelIdeal.Payload

end
-- ==== Proof.KernelBlocks.lean ====
/-
  One grid point's two output blocks from what its five input blocks hold.

  At the grid point of batch `b`, head `h` and half `i0` of the query positions, the query blocks hold rows
  `i0 · 1024 + r` of head `h` (hi: the scaled query; lo: the scaled query minus itself) and the key and value blocks hold
  every position of head `h` (key hi: the key; key lo: the key minus itself). For REAL arguments the logits block is then
  the specification's logits (the lo parts contribute sums of products with zero), the score block its absolute values,
  and the output block the specification's attended values (normalising last agrees with normalising first).
-/
import proofs.«138931_g20246475833907_fold_wed_m_552_11_alg».proof.Proof.Payload
import proofs.«138931_g20246475833907_fold_wed_m_552_11_alg».proof.Proof.Attention

noncomputable section

open scoped BigOperators
open Idealize.ShloMosaic Idealize.ShloMosaic.ValueIdx Cert.Rows Cert.Attn
open Cert.KernelIdeal Cert.KernelIdeal.Gen

namespace Cert.KernelIdeal.Blocks

/-- The query position of row `r` in half `i0`. -/
def rowOf (i0 : Fin 2) (r : Fin 1024) : Fin 2048 := ⟨i0.val * 1024 + r.val, by have := i0.isLt; have := r.isLt; omega⟩
/-- The column of feature `d` of head `h`. -/
def colOf (h : Fin 16) (d : Fin 128) : Fin 2048 := ⟨h.val * 128 + d.val, by have := h.isLt; have := d.isLt; omega⟩

theorem headOf_colOf (h : Fin 16) (d : Fin 128) : headOf (colOf h d) = h :=
  Fin.ext (by show (h.val * 128 + d.val) / 128 = h.val; have := d.isLt; omega)
theorem featOf_colOf (h : Fin 16) (d : Fin 128) : featOf (colOf h d) = d :=
  Fin.ext (by show (h.val * 128 + d.val) % 128 = d.val; have := d.isLt; omega)

variable (q k v : (⟨4, ![2, 2048, 16, 128]⟩ : Shape).Idx → ℝ) (cR : ℝ)

/-- What the five input blocks of the grid point (b, h, i0) hold, for real arguments `q`, `k`, `v` and a real scale. -/
structure Holds (x0 x1 : Vec Ideal S1x1024x128 .bf16) (x2 x3 : Vec Ideal S1x2048x128 .bf16) (x4 : Vec Ideal S1x2048x128 .f32)
    (b : Fin 2) (h : Fin 16) (i0 : Fin 2) : Prop where
  qhi : ∀ (r : Fin 1024) (d : Fin 128), x0 (ix3 0 r d) = (q (ix4 b (rowOf i0 r) h d) : EReal) * (cR : EReal)
  qlo : ∀ (r : Fin 1024) (d : Fin 128), x1 (ix3 0 r d)
    = (q (ix4 b (rowOf i0 r) h d) : EReal) * (cR : EReal) - (q (ix4 b (rowOf i0 r) h d) : EReal) * (cR : EReal)
  khi : ∀ (j : Fin 2048) (d : Fin 128), x2 (ix3 0 j d) = (k (ix4 b j h d) : EReal)
  klo : ∀ (j : Fin 2048) (d : Fin 128), x3 (ix3 0 j d) = (k (ix4 b j h d) : EReal) - (k (ix4 b j h d) : EReal)
  val : ∀ (j : Fin 2048) (d : Fin 128), x4 (ix3 0 j d) = (v (ix4 b j h d) : EReal)

variable {q k v cR}
variable {x0 x1 : Vec Ideal S1x1024x128 .bf16} {x2 x3 : Vec Ideal S1x2048x128 .bf16} {x4 : Vec Ideal S1x2048x128 .f32}
  {b : Fin 2} {h : Fin 16} {i0 : Fin 2}

/-- The logits block is the specification's logits. -/
theorem logits_block (hB : Holds q k v cR x0 x1 x2 x3 x4 b h i0) (r : Fin 1024) (j : Fin 2048) :
    k0_pay2 (F := Ideal) x0 x1 x2 x3 (ix2 r j)
      = logit (fun y => (q y : EReal)) (fun y => (k y : EReal)) (cR : EReal) b h (rowOf i0 r) j := by
  rw [Payload.logits_apply]
  simp only [hB.qhi, hB.qlo, hB.khi, hB.klo]
  exact logit_split q k cR b h (rowOf i0 r) j

/-- The score block is the specification's score. -/
theorem score_block (hB : Holds q k v cR x0 x1 x2 x3 x4 b h i0) (r : Fin 1024) (j : Fin 2048) :
    FloatOps.absf (k0_pay2 (F := Ideal) x0 x1 x2 x3 (ix2 r j))
      = score (fun y => (q y : EReal)) (fun y => (k y : EReal)) (cR : EReal) (ix4 b h (rowOf i0 r) j) := by
  rw [logits_block hB]
  rfl

/-- The output block is the specification's attended values. -/
theorem attended_block (hB : Holds q k v cR x0 x1 x2 x3 x4 b h i0) (r : Fin 1024) (d : Fin 128) :
    k0_pay4 (F := Ideal) x0 x1 x2 x3 x4 (ix2 r d)
      = attended (fun y => (q y : EReal)) (fun y => (k y : EReal)) (fun y => (v y : EReal)) (cR : EReal)
          (ix3 b (rowOf i0 r) (colOf h d)) := by
  rw [Payload.attended_apply]
  simp only [logits_block hB, hB.val]
  rw [← attendedLast_of_real]
  show _ = avgNormLast (fun j => logit _ _ _ b (headOf (colOf h d)) (rowOf i0 r) j)
    (fun j => (fun y => (v y : EReal)) (ix4 b j (headOf (colOf h d)) (featOf (colOf h d))))
  rw [headOf_colOf, featOf_colOf]

end Cert.KernelIdeal.Blocks

end
-- ==== Proof.GridPoints.lean ====
/-
  The grid's 64 points and where each window's block sits.

  Point `t` is batch `t / 32`, head `t / 2 % 16` and half `t % 2` of the query positions. There the query windows hold rows
  `(t % 2) · 1024 + r` and columns `(t / 2 % 16) · 128 + d` of batch `t / 32`, the key and value windows every row of those
  columns; the score window's block is [batch, head, half, 0] and the output window's block [batch, half, head].
-/
import proofs.«138931_g20246475833907_fold_wed_m_552_11_alg».proof.Proof.Gen.KernelIdeal.Value
import proofs.«138931_g20246475833907_fold_wed_m_552_11_alg».proof.Proof.KernelInputs
import proofs.«138931_g20246475833907_fold_wed_m_552_11_alg».proof.Proof.KernelBlocks

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inputs Cert.KernelIdeal.Blocks Cert.Attn

namespace Cert.KernelIdeal.KValue

theorem hz3 : (![0, 0, 0] : Fin 3 → Nat) = fun _ => 0 := funext fun a => by fin_cases a <;> rfl

/-- The printed index maps, decided over the grid: point `t` is (batch t / 32, head t / 2 % 16, half t % 2). -/
theorem idx_facts : ∀ t : Fin cfg0.N,
    (win0_0.index t (0 : Fin 3) = t.val / 32 ∧ win0_0.index t (1 : Fin 3) = t.val % 2 ∧ win0_0.index t (2 : Fin 3) = t.val / 2 % 16)
    ∧ (win0_1.index t (0 : Fin 3) = t.val / 32 ∧ win0_1.index t (1 : Fin 3) = t.val % 2 ∧ win0_1.index t (2 : Fin 3) = t.val / 2 % 16)
    ∧ (win0_2.index t (0 : Fin 3) = t.val / 32 ∧ win0_2.index t (1 : Fin 3) = 0 ∧ win0_2.index t (2 : Fin 3) = t.val / 2 % 16)
    ∧ (win0_3.index t (0 : Fin 3) = t.val / 32 ∧ win0_3.index t (1 : Fin 3) = 0 ∧ win0_3.index t (2 : Fin 3) = t.val / 2 % 16)
    ∧ (win0_4.index t (0 : Fin 3) = t.val / 32 ∧ win0_4.index t (1 : Fin 3) = 0 ∧ win0_4.index t (2 : Fin 3) = t.val / 2 % 16)
    ∧ (win0_5.index t (0 : Fin 4) = t.val / 32 ∧ win0_5.index t (1 : Fin 4) = t.val / 2 % 16 ∧ win0_5.index t (2 : Fin 4) = t.val % 2
        ∧ win0_5.index t (3 : Fin 4) = 0)
    ∧ (win0_6.index t (0 : Fin 3) = t.val / 32 ∧ win0_6.index t (1 : Fin 3) = t.val % 2 ∧ win0_6.index t (2 : Fin 3) = t.val / 2 % 16) :=
  (by decide +kernel : ∀ t : Fin grid0.N, _)

theorem lt_N (t : Fin cfg0.N) : t.val < 64 := Nat.lt_of_lt_of_eq t.isLt (N_0 : cfg0.N = 64)

/-- The batch, head and half of the query positions of grid point `t`. -/
def bOf (t : Fin cfg0.N) : Fin 2 := ⟨t.val / 32, by have := lt_N t; omega⟩
def hOf (t : Fin cfg0.N) : Fin 16 := ⟨t.val / 2 % 16, by omega⟩
def iOf (t : Fin cfg0.N) : Fin 2 := ⟨t.val % 2, by omega⟩

/-! ## Where the windows' blocks sit -/

/-- Entry [0, r, d] of the query hi block at point `t`. -/
theorem emb_qhi (t : Fin cfg0.N) (r : Fin 1024) (d : Fin 128) :
    unflat (((cfg0.win 0).blk t).view.emb (ix3 0 r d)) = ix4 (bOf t) (rowOf (iOf t) r) (hOf t) d := by
  obtain ⟨⟨e0, e1, e2⟩, -⟩ := idx_facts t
  have hd := d.isLt
  funext a; apply Fin.ext
  match a with
  | ⟨0, _⟩ => show win0_0.index t (0 : Fin 3) * 1 + 1 * 0 = t.val / 32; omega
  | ⟨1, _⟩ => show win0_0.index t (1 : Fin 3) * 1024 + 1 * r.val = t.val % 2 * 1024 + r.val; omega
  | ⟨2, _⟩ => show (win0_0.index t (2 : Fin 3) * 128 + 1 * d.val) / 128 = t.val / 2 % 16; omega
  | ⟨3, _⟩ => show (win0_0.index t (2 : Fin 3) * 128 + 1 * d.val) % 128 = d.val; omega

/-- Entry [0, r, d] of the query lo block at point `t`. -/
theorem emb_qlo (t : Fin cfg0.N) (r : Fin 1024) (d : Fin 128) :
    unflat (((cfg0.win 1).blk t).view.emb (ix3 0 r d)) = ix4 (bOf t) (rowOf (iOf t) r) (hOf t) d := by
  obtain ⟨-, ⟨e0, e1, e2⟩, -⟩ := idx_facts t
  have hd := d.isLt
  funext a; apply Fin.ext
  match a with
  | ⟨0, _⟩ => show win0_1.index t (0 : Fin 3) * 1 + 1 * 0 = t.val / 32; omega
  | ⟨1, _⟩ => show win0_1.index t (1 : Fin 3) * 1024 + 1 * r.val = t.val % 2 * 1024 + r.val; omega
  | ⟨2, _⟩ => show (win0_1.index t (2 : Fin 3) * 128 + 1 * d.val) / 128 = t.val / 2 % 16; omega
  | ⟨3, _⟩ => show (win0_1.index t (2 : Fin 3) * 128 + 1 * d.val) % 128 = d.val; omega

/-- Entry [0, j, d] of the key hi block at point `t`. -/
theorem emb_khi (t : Fin cfg0.N) (j : Fin 2048) (d : Fin 128) :
    unflat (((cfg0.win 2).blk t).view.emb (ix3 0 j d)) = ix4 (bOf t) j (hOf t) d := by
  obtain ⟨-, -, ⟨e0, e1, e2⟩, -⟩ := idx_facts t
  have hd := d.isLt
  funext a; apply Fin.ext
  match a with
  | ⟨0, _⟩ => show win0_2.index t (0 : Fin 3) * 1 + 1 * 0 = t.val / 32; omega
  | ⟨1, _⟩ => show win0_2.index t (1 : Fin 3) * 2048 + 1 * j.val = j.val; omega
  | ⟨2, _⟩ => show (win0_2.index t (2 : Fin 3) * 128 + 1 * d.val) / 128 = t.val / 2 % 16; omega
  | ⟨3, _⟩ => show (win0_2.index t (2 : Fin 3) * 128 + 1 * d.val) % 128 = d.val; omega

/-- Entry [0, j, d] of the key lo block at point `t`. -/
theorem emb_klo (t : Fin cfg0.N) (j : Fin 2048) (d : Fin 128) :
    unflat (((cfg0.win 3).blk t).view.emb (ix3 0 j d)) = ix4 (bOf t) j (hOf t) d := by
  obtain ⟨-, -, -, ⟨e0, e1, e2⟩, -⟩ := idx_facts t
  have hd := d.isLt
  funext a; apply Fin.ext
  match a with
  | ⟨0, _⟩ => show win0_3.index t (0 : Fin 3) * 1 + 1 * 0 = t.val / 32; omega
  | ⟨1, _⟩ => show win0_3.index t (1 : Fin 3) * 2048 + 1 * j.val = j.val; omega
  | ⟨2, _⟩ => show (win0_3.index t (2 : Fin 3) * 128 + 1 * d.val) / 128 = t.val / 2 % 16; omega
  | ⟨3, _⟩ => show (win0_3.index t (2 : Fin 3) * 128 + 1 * d.val) % 128 = d.val; omega

/-- Entry [0, j, d] of the value block at point `t`. -/
theorem emb_val (t : Fin cfg0.N) (j : Fin 2048) (d : Fin 128) :
    unflat (((cfg0.win 4).blk t).view.emb (ix3 0 j d)) = ix4 (bOf t) j (hOf t) d := by
  obtain ⟨-, -, -, -, ⟨e0, e1, e2⟩, -⟩ := idx_facts t
  have hd := d.isLt
  funext a; apply Fin.ext
  match a with
  | ⟨0, _⟩ => show win0_4.index t (0 : Fin 3) * 1 + 1 * 0 = t.val / 32; omega
  | ⟨1, _⟩ => show win0_4.index t (1 : Fin 3) * 2048 + 1 * j.val = j.val; omega
  | ⟨2, _⟩ => show (win0_4.index t (2 : Fin 3) * 128 + 1 * d.val) / 128 = t.val / 2 % 16; omega
  | ⟨3, _⟩ => show (win0_4.index t (2 : Fin 3) * 128 + 1 * d.val) % 128 = d.val; omega

/-- Entry [0, 0, r, j] of the score block at point `t`. -/
theorem emb_score (t : Fin cfg0.N) (z0 z1 : Fin 1) (r : Fin 1024) (j : Fin 2048) :
    ((cfg0.win 5).blk t).view.emb (ix4 z0 z1 r j) = ix4 (bOf t) (hOf t) (rowOf (iOf t) r) j := by
  obtain ⟨-, -, -, -, -, ⟨e0, e1, e2, e3⟩, -⟩ := idx_facts t
  have h0 := z0.isLt
  have h1 := z1.isLt
  funext a; apply Fin.ext
  match a with
  | ⟨0, _⟩ => show win0_5.index t (0 : Fin 4) * 1 + 1 * z0.val = t.val / 32; omega
  | ⟨1, _⟩ => show win0_5.index t (1 : Fin 4) * 1 + 1 * z1.val = t.val / 2 % 16; omega
  | ⟨2, _⟩ => show win0_5.index t (2 : Fin 4) * 1024 + 1 * r.val = t.val % 2 * 1024 + r.val; omega
  | ⟨3, _⟩ => show win0_5.index t (3 : Fin 4) * 2048 + 1 * j.val = j.val; omega

/-- Entry [0, r, d] of the output block at point `t`. -/
theorem emb_out (t : Fin cfg0.N) (z0 : Fin 1) (r : Fin 1024) (d : Fin 128) :
    ((cfg0.win 6).blk t).view.emb (ix3 z0 r d) = ix3 (bOf t) (rowOf (iOf t) r) (colOf (hOf t) d) := by
  obtain ⟨-, -, -, -, -, -, ⟨e0, e1, e2⟩⟩ := idx_facts t
  have h0 := z0.isLt
  funext a; apply Fin.ext
  match a with
  | ⟨0, _⟩ => show win0_6.index t (0 : Fin 3) * 1 + 1 * z0.val = t.val / 32; omega
  | ⟨1, _⟩ => show win0_6.index t (1 : Fin 3) * 1024 + 1 * r.val = t.val % 2 * 1024 + r.val; omega
  | ⟨2, _⟩ => show win0_6.index t (2 : Fin 3) * 128 + 1 * d.val = t.val / 2 % 16 * 128 + d.val; omega

end Cert.KernelIdeal.KValue

end
-- ==== Proof.KernelHolds.lean ====
/-
  What the five input blocks of a grid point hold when the arguments are real: the region finds the scaled query, the
  key and the value (and the two differences of a value with itself) in its input arrays, and a block is the array read
  where the block sits.
-/
import proofs.«138931_g20246475833907_fold_wed_m_552_11_alg».proof.Proof.GridPoints

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inputs Cert.KernelIdeal.Blocks Cert.Attn

namespace Cert.KernelIdeal.KValue

/-! ## What the input blocks hold, for real arguments -/

variable (m : (ℓ : Loc nD τ sig) → Buf (Elt Ideal) ℓ)

/-- On core `c` the three argument arrays hold the reals `q`, `k`, `v`, and the scale is the real `cR`. -/
structure RealArgs (c : Dev nD) (q k v : (⟨4, ![2, 2048, 16, 128]⟩ : Shape).Idx → ℝ) (cR : ℝ) : Prop where
  hq : argQ m c = fun y => (q y : EReal)
  hk : argK m c = fun y => (k y : EReal)
  hv : argV m c = fun y => (v y : EReal)
  hc : scale = (cR : EReal)

variable {m} {c : Dev nD} {q k v : (⟨4, ![2, 2048, 16, 128]⟩ : Shape).Idx → ℝ} {cR : ℝ}

/-- The five input blocks of point `t` hold what `Blocks.Holds` asks at (batch, head, half) of `t`. -/
theorem holds_at (hR : RealArgs m c q k v cR) (t : Fin cfg0.N) :
    Holds q k v cR (iblk m c 0 t) (iblk m c 1 t) (iblk m c 2 t) (iblk m c 3 t) (iblk m c 4 t) (bOf t) (hOf t) (iOf t) where
  qhi r d := by
    refine (congrFun (qhi_eq m c) (((cfg0.win 0).blk t).view.emb (ix3 0 r d))).trans ?_
    show argQ m c (unflat (((cfg0.win 0).blk t).view.emb (ix3 0 r d))) * scale = _
    rw [emb_qhi, hR.hq, hR.hc]
  qlo r d := by
    refine (congrFun (qlo_eq m c) (((cfg0.win 1).blk t).view.emb (ix3 0 r d))).trans ?_
    show argQ m c (unflat (((cfg0.win 1).blk t).view.emb (ix3 0 r d))) * scale
      - argQ m c (unflat (((cfg0.win 1).blk t).view.emb (ix3 0 r d))) * scale = _
    rw [emb_qlo, hR.hq, hR.hc]
  khi j d := by
    refine (congrFun (khi_eq m c) (((cfg0.win 2).blk t).view.emb (ix3 0 j d))).trans ?_
    show argK m c (unflat (((cfg0.win 2).blk t).view.emb (ix3 0 j d))) = _
    rw [emb_khi, hR.hk]
  klo j d := by
    refine (congrFun (klo_eq m c) (((cfg0.win 3).blk t).view.emb (ix3 0 j d))).trans ?_
    show argK m c (unflat (((cfg0.win 3).blk t).view.emb (ix3 0 j d)))
      - argK m c (unflat (((cfg0.win 3).blk t).view.emb (ix3 0 j d))) = _
    rw [emb_klo, hR.hk]
  val j d := by
    refine (congrFun (val_eq m c) (((cfg0.win 4).blk t).view.emb (ix3 0 j d))).trans ?_
    show argV m c (unflat (((cfg0.win 4).blk t).view.emb (ix3 0 j d))) = _
    rw [emb_val, hR.hv]

end Cert.KernelIdeal.KValue

end
-- ==== Proof.KernelOut.lean ====
/-
  The two output blocks of a grid point, read at an entry, from what its input blocks hold: the score block's entry
  [0, 0, r, j] is the specification's score at [batch, head, half · 1024 + r, j], and the output block's entry [0, r, d]
  the specification's attended value at [batch, half · 1024 + r, head · 128 + d]. Each block is the one store of the
  body through the whole-block rectangle, so it is the stored payload, whose entries are the body's arithmetic.
-/
import proofs.«138931_g20246475833907_fold_wed_m_552_11_alg».proof.Proof.Gen.KernelIdeal.Value
import proofs.«138931_g20246475833907_fold_wed_m_552_11_alg».proof.Proof.KernelBlocks

set_option maxRecDepth 16384

noncomputable section

open scoped BigOperators
open Idealize.ShloMosaic Idealize.ShloMosaic.TcCoe Idealize.ShloMosaic.ValueIdx Idealize.SL.Sem
open Cert.KernelIdeal Cert.KernelIdeal.Gen Cert.KernelIdeal.Blocks Cert.Attn

namespace Cert.KernelIdeal.Blocks

theorem zero3 : (![0, 0, 0] : Fin 3 → Nat) = fun _ => 0 := funext fun a => by fin_cases a <;> rfl

variable {q k v : (⟨4, ![2, 2048, 16, 128]⟩ : Shape).Idx → ℝ} {cR : ℝ}
variable {x0 x1 : Vec Ideal S1x1024x128 .bf16} {x2 x3 : Vec Ideal S1x2048x128 .bf16} {x4 : Vec Ideal S1x2048x128 .f32}
  {b : Fin 2} {h : Fin 16} {i0 : Fin 2}

/-- Entry [0, 0, r, j] of the score block. -/
theorem out5_apply (hB : Holds q k v cR x0 x1 x2 x3 x4 b h i0) (z0 z1 : Fin 1) (r : Fin 1024) (j : Fin 2048) :
    out0_5 (F := Ideal) x0 x1 x2 x3 x4 (ix4 z0 z1 r j)
      = score (fun y => (q y : EReal)) (fun y => (k y : EReal)) (cR : EReal) (ix4 b h (rowOf i0 r) j) := by
  unfold out0_5
  refine (Value.canon5_eq (View.ld x0 r0_0) (View.ld x1 r0_0) (View.ld x2 r0_1) (View.ld x3 r0_1) (ix4 z0 z1 r j)).trans ?_
  rw [View.ld_unit_zero (S := S1x1024x128) zero3 _ x0, View.ld_unit_zero (S := S1x1024x128) zero3 _ x1,
    View.ld_unit_zero (S := S1x2048x128) zero3 _ x2, View.ld_unit_zero (S := S1x2048x128) zero3 _ x3]
  have e : Value.ix5_0 (ix4 z0 z1 r j) = ix2 r j := funext fun a => Fin.ext (by
    match a with | ⟨0, _⟩ => rfl | ⟨1, _⟩ => rfl)
  show FloatOps.absf (k0_pay2 (F := Ideal) x0 x1 x2 x3 (Value.ix5_0 (ix4 z0 z1 r j))) = _
  rw [e]
  exact score_block hB r j

/-- Entry [0, r, d] of the output block. -/
theorem out6_apply (hB : Holds q k v cR x0 x1 x2 x3 x4 b h i0) (z0 : Fin 1) (r : Fin 1024) (d : Fin 128) :
    out0_6 (F := Ideal) x0 x1 x2 x3 x4 (ix3 z0 r d)
      = attended (fun y => (q y : EReal)) (fun y => (k y : EReal)) (fun y => (v y : EReal)) (cR : EReal)
          (ix3 b (rowOf i0 r) (colOf h d)) := by
  unfold out0_6
  refine (Value.canon6_eq (View.ld x0 r0_0) (View.ld x1 r0_0) (View.ld x2 r0_1) (View.ld x3 r0_1) (View.ld x4 r0_1)
    (ix3 z0 r d)).trans ?_
  rw [View.ld_unit_zero (S := S1x1024x128) zero3 _ x0, View.ld_unit_zero (S := S1x1024x128) zero3 _ x1,
    View.ld_unit_zero (S := S1x2048x128) zero3 _ x2, View.ld_unit_zero (S := S1x2048x128) zero3 _ x3,
    View.ld_unit_zero (S := S1x2048x128) zero3 _ x4]
  have e : Value.ix6_0 (ix3 z0 r d) = ix2 r d := funext fun a => Fin.ext (by
    match a with | ⟨0, _⟩ => rfl | ⟨1, _⟩ => rfl)
  show k0_pay4 (F := Ideal) x0 x1 x2 x3 x4 (Value.ix6_0 (ix3 z0 r d)) = _
  rw [e]
  exact attended_block hB r d

end Cert.KernelIdeal.Blocks

end
-- ==== Proof.KernelFlushed.lean ====
/-
  What each grid point writes back: block `t` of the specification's score array and of its attended array — the body's
  two output blocks, read at an entry from what the input blocks hold, set where the window's block sits.
-/
import proofs.«138931_g20246475833907_fold_wed_m_552_11_alg».proof.Proof.KernelHolds
import proofs.«138931_g20246475833907_fold_wed_m_552_11_alg».proof.Proof.KernelOut

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inputs Cert.KernelIdeal.Blocks Cert.Attn

namespace Cert.KernelIdeal.KValue

variable {m : (ℓ : Loc nD τ sig) → Buf (Elt Ideal) ℓ} {c : Dev nD}

/-! ## A point's block of an array, from the block's entries -/

/-- If entry [0, 0, r, j] of the score block that point `t` leaves is `G` where the block sits, point `t` writes back
    block `t` of `G`. -/
theorem flushed5_of (t : Fin cfg0.N) (G : (⟨4, ![2, 16, 2048, 2048]⟩ : Shape).Idx → EReal)
    (hG : ∀ (z0 z1 : Fin 1) (r : Fin 1024) (j : Fin 2048),
      out0_5 (iblk m c 0 t) (iblk m c 1 t) (iblk m c 2 t) (iblk m c 3 t) (iblk m c 4 t) (ix4 z0 z1 r j)
        = G (ix4 (bOf t) (hOf t) (rowOf (iOf t) r) j)) :
    (dats m 0 c).flushed 5 t = ((cfg0.win 5).blk t).view.read (Elt Ideal) G := by
  rw [Value.flushed5]
  funext y
  obtain ⟨z0, z1, r, j, rfl⟩ : ∃ (z0 z1 : Fin 1) (r : Fin 1024) (j : Fin 2048), y = ix4 z0 z1 r j :=
    ⟨y 0, y 1, y 2, y 3, eq_ix4 y⟩
  show out0_5 (iblk m c 0 t) (iblk m c 1 t) (iblk m c 2 t) (iblk m c 3 t) (iblk m c 4 t) (ix4 z0 z1 r j)
    = G (((cfg0.win 5).blk t).view.emb (ix4 z0 z1 r j))
  rw [emb_score]
  exact hG z0 z1 r j

/-- If entry [0, r, d] of the output block that point `t` leaves is `G` where the block sits, point `t` writes back
    block `t` of `G`. -/
theorem flushed6_of (t : Fin cfg0.N) (G : (⟨3, ![2, 2048, 2048]⟩ : Shape).Idx → EReal)
    (hG : ∀ (z0 : Fin 1) (r : Fin 1024) (d : Fin 128),
      out0_6 (iblk m c 0 t) (iblk m c 1 t) (iblk m c 2 t) (iblk m c 3 t) (iblk m c 4 t) (ix3 z0 r d)
        = G (ix3 (bOf t) (rowOf (iOf t) r) (colOf (hOf t) d))) :
    (dats m 0 c).flushed 6 t = ((cfg0.win 6).blk t).view.read (Elt Ideal) G := by
  rw [Value.flushed6]
  funext y
  obtain ⟨z0, r, d, rfl⟩ : ∃ (z0 : Fin 1) (r : Fin 1024) (d : Fin 128), y = ix3 z0 r d := ⟨y 0, y 1, y 2, eq_ix3 y⟩
  show out0_6 (iblk m c 0 t) (iblk m c 1 t) (iblk m c 2 t) (iblk m c 3 t) (iblk m c 4 t) (ix3 z0 r d)
    = G (((cfg0.win 6).blk t).view.emb (ix3 z0 r d))
  rw [emb_out]
  exact hG z0 r d

/-! ## What each point writes back -/

variable {q k v : (⟨4, ![2, 2048, 16, 128]⟩ : Shape).Idx → ℝ} {cR : ℝ}

/-- Point `t` writes back block `t` of the specification's score array. -/
theorem flushed5_eq (hR : RealArgs m c q k v cR) (t : Fin cfg0.N) :
    (dats m 0 c).flushed 5 t = ((cfg0.win 5).blk t).view.read (Elt Ideal)
      (score (fun y => (q y : EReal)) (fun y => (k y : EReal)) (cR : EReal)) :=
  flushed5_of t _ fun z0 z1 r j => out5_apply (holds_at hR t) z0 z1 r j

/-- Point `t` writes back block `t` of the specification's attended array. -/
theorem flushed6_eq (hR : RealArgs m c q k v cR) (t : Fin cfg0.N) :
    (dats m 0 c).flushed 6 t = ((cfg0.win 6).blk t).view.read (Elt Ideal)
      (attended (fun y => (q y : EReal)) (fun y => (k y : EReal)) (fun y => (v y : EReal)) (cR : EReal)) :=
  flushed6_of t _ fun z0 r d => out6_apply (holds_at hR t) z0 r d

end Cert.KernelIdeal.KValue

end
-- ==== Proof.KernelCover.lean ====
/-
  The output windows' blocks cover both result arrays: an index lies in the block of the grid point of its batch, head
  and half of the query positions.
-/
import proofs.«138931_g20246475833907_fold_wed_m_552_11_alg».proof.Proof.GridPoints

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inputs Cert.KernelIdeal.Blocks Cert.Attn

namespace Cert.KernelIdeal.KValue

/-! ## The blocks cover both arrays -/

/-- An index of the score array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x1x1024x2048.size a ≤ (i a).val
      ∧ (i a).val < win0_5.index t a * S1x1x1024x2048.size a + S1x1x1024x2048.size a := by
  show i ∈ ((View.whole main_v13_0).slice (win0_5.rect t)).set ↔ _
  rw [View.set_slice_whole, Rect.mem_set_unit]
  exact Iff.rfl

/-- Every index of the score array is in the block of the point of its batch, head and half. -/
theorem cover5 (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ : ∃ t : Fin cfg0.N, t.val = (i 0).val * 32 + (i 1).val * 2 + (i 2).val / 1024 :=
    ⟨⟨(i 0).val * 32 + (i 1).val * 2 + (i 2).val / 1024, Nat.lt_of_lt_of_eq (by omega) (N_0 : cfg0.N = 64).symm⟩, rfl⟩
  refine ⟨t, flush0_5 t, ?_⟩
  rw [mem_blk5]
  obtain ⟨-, -, -, -, -, ⟨e0, e1, e2, e3⟩, -⟩ := idx_facts t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- An index of the attended array is in point `t`'s block iff each coordinate is in the block's range on its axis. -/
theorem mem_blk6 (t : Fin cfg0.N) (i : S2x2048x2048.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v13_1).slice (win0_6.rect t)).set ↔ _
  rw [View.set_slice_whole, Rect.mem_set_unit]
  exact Iff.rfl

/-- Every index of the attended array is in the block of the point of its batch, head and half. -/
theorem cover6 (i : S2x2048x2048.Idx) :
    ∃ t : Fin cfg0.N, (cfg0.win 6).flush t = true ∧ i ∈ ((cfg0.win 6).blk t).view.set := by
  have h0 : (i 0).val < 2 := (i 0).isLt
  have h1 : (i 1).val < 2048 := (i 1).isLt
  have h2 : (i 2).val < 2048 := (i 2).isLt
  obtain ⟨t, ht⟩ : ∃ t : Fin cfg0.N, t.val = (i 0).val * 32 + (i 2).val / 128 * 2 + (i 1).val / 1024 :=
    ⟨⟨(i 0).val * 32 + (i 2).val / 128 * 2 + (i 1).val / 1024, Nat.lt_of_lt_of_eq (by omega) (N_0 : cfg0.N = 64).symm⟩, rfl⟩
  refine ⟨t, flush0_6 t, ?_⟩
  rw [mem_blk6]
  obtain ⟨-, -, -, -, -, -, ⟨e0, e1, e2⟩⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

end Cert.KernelIdeal.KValue

end
-- ==== Proof.KernelValue.lean ====
/-
  The kernel's two result arrays are the specification's, for real arguments: every point writes back its block of the
  specification's array and the blocks cover the array, so after the run the array IS the specification's.
-/
import proofs.«138931_g20246475833907_fold_wed_m_552_11_alg».proof.Proof.KernelFlushed
import proofs.«138931_g20246475833907_fold_wed_m_552_11_alg».proof.Proof.KernelCover

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inputs Cert.KernelIdeal.Blocks Cert.Attn

namespace Cert.KernelIdeal.KValue

variable {m : (ℓ : Loc nD τ sig) → Buf (Elt Ideal) ℓ} {c : Dev nD} {q k v : (⟨4, ![2, 2048, 16, 128]⟩ : Shape).Idx → ℝ} {cR : ℝ}

/-! ## The arrays after the run, and the run -/

/-- The score array after the run is the specification's. -/
theorem final5 (hR : RealArgs m c q k v cR) :
    (dats m 0 c).arrAt 5 cfg0.N = score (fun y => (q y : EReal)) (fun y => (k y : EReal)) (cR : EReal) :=
  (dats m 0 c).arrAt_eq_of_cover 5 _ (fun t _ => flushed5_eq hR t) cover5

/-- The attended array after the run is the specification's. -/
theorem final6 (hR : RealArgs m c q k v cR) :
    (dats m 0 c).arrAt 6 cfg0.N
      = attended (fun y => (q y : EReal)) (fun y => (k y : EReal)) (fun y => (v y : EReal)) (cR : EReal) :=
  (dats m 0 c).arrAt_eq_of_cover 6 _ (fun t _ => flushed6_eq hR t) cover6

variable (m) (ρ : Dev nD → PrngReg)

/-- The run: both result arrays at the specification's arrays of the (real) arguments, the arguments unchanged. -/
theorem run (q k v : Dev nD → (⟨4, ![2, 2048, 16, 128]⟩ : Shape).Idx → ℝ) (cR : ℝ)
    (hR : ∀ c, RealArgs m c (q c) (k c) (v c) cR) :
    θ_run defs (onTc (τ := τ) (main (F := Ideal))) ⟨m, fun _ => 0, ρ⟩ fun r => ∀ c : Dev nD,
      r.2.mem ((c : Thread nD τ).loc main_v13_1)
          = attended (fun y => (q c y : EReal)) (fun y => (k c y : EReal)) (fun y => (v c y : EReal)) (cR : EReal)
      ∧ r.2.mem ((c : Thread nD τ).loc main_v13_0) = score (fun y => (q c y : EReal)) (fun y => (k c y : EReal)) (cR : EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.1.trans (final6 (hR c)), (h c).1.trans (final5 (hR c)),
      (h c).2.2.1, (h c).2.2.2.1, (h c).2.2.2.2⟩)
    (Value.run_blocks m ρ)

end Cert.KernelIdeal.KValue

end
-- ==== Proof.lean ====
/-
  Fused full attention against the plain reference, over the extended reals.

  Both programs take a query, a key and a value array [batch 2, position 2048, head 16, feature 128] and return the
  attended values [2, 2048, 2048] and the score array [2, 16, 2048, 2048] of the logits' absolute values.

  The reference scales the query by `f32 (√128)`, forms every head's logits as dot products over the 128 features, takes
  the soft-max of each row (the exponentials of the distances below the row's maximum, each divided by their total) and
  sums the normalised weights against the values.

  The kernel splits the scaled query and the key into a sixteen-bit hi part and the sixteen-bit remainder, forms the
  logits as hi·hi + hi·lo + lo·hi, and divides the un-normalised weighted sum of the values by the row's total. With
  exact arithmetic, where a change of format is the identity, the hi part is the value and the remainder is the value
  minus itself; under the precondition every input is a real number, so the remainder is zero and the two extra dot
  products vanish, and the weights, their total and the values are real with the total positive, so dividing the sum
  equals summing the quotients. The two programs therefore compute one function of the arguments
  (`Cert.Attn.attended`, `Cert.Attn.score`), index by index.

  The three frames are the generated ones (the reference's is its generated run with the results dropped); the ideal
  pass rewrote nothing, so `preserves` asks nothing.
-/
import proofs.«138931_g20246475833907_fold_wed_m_552_11_alg».proof.Defs
import proofs.«138931_g20246475833907_fold_wed_m_552_11_alg».proof.Proof.Gen.Kernel
import proofs.«138931_g20246475833907_fold_wed_m_552_11_alg».proof.Proof.Gen.Kernel.Skeleton
import proofs.«138931_g20246475833907_fold_wed_m_552_11_alg».proof.Proof.Gen.Kernel.Launch
import proofs.«138931_g20246475833907_fold_wed_m_552_11_alg».proof.Proof.Gen.Kernel.Points
import proofs.«138931_g20246475833907_fold_wed_m_552_11_alg».proof.Proof.Gen.Kernel.Frame
import proofs.«138931_g20246475833907_fold_wed_m_552_11_alg».proof.Proof.Gen.KernelIdeal
import proofs.«138931_g20246475833907_fold_wed_m_552_11_alg».proof.Proof.Gen.KernelIdeal.Skeleton
import proofs.«138931_g20246475833907_fold_wed_m_552_11_alg».proof.Proof.Gen.KernelIdeal.Launch
import proofs.«138931_g20246475833907_fold_wed_m_552_11_alg».proof.Proof.Gen.KernelIdeal.Points
import proofs.«138931_g20246475833907_fold_wed_m_552_11_alg».proof.Proof.Gen.KernelIdeal.Frame
import proofs.«138931_g20246475833907_fold_wed_m_552_11_alg».proof.Proof.Gen.ReferenceIdeal
import proofs.«138931_g20246475833907_fold_wed_m_552_11_alg».proof.Proof.Gen.Pre_finite_inputs
import proofs.«138931_g20246475833907_fold_wed_m_552_11_alg».proof.Proof.Gen.KernelIdeal.Value
import proofs.«138931_g20246475833907_fold_wed_m_552_11_alg».proof.Proof.Gen.ReferenceIdeal.Run
import proofs.«138931_g20246475833907_fold_wed_m_552_11_alg».proof.Proof.Gen.ReferenceIdeal.Read
import proofs.«138931_g20246475833907_fold_wed_m_552_11_alg».proof.Proof.FiniteArgs
import proofs.«138931_g20246475833907_fold_wed_m_552_11_alg».proof.Proof.RefValue
import proofs.«138931_g20246475833907_fold_wed_m_552_11_alg».proof.Proof.KernelValue
import Idealize.ShloMosaic.Adequacy
import Idealize.ShloMosaic.Init

noncomputable section

namespace Cert.Proof

open Idealize.ShloMosaic Idealize.ShloMosaic.TcCoe Idealize.SL.Sem Cert.Attn

/-- The scale's word `0x413504F3` is a normal number: a real. -/
theorem scale_real : ∃ r : ℝ, Ideal.ofBits .f32 0x413504F3#32 = (r : EReal) := by
  show ∃ r : ℝ, Ideal.ieee 8 23 (0x413504F3#32 : BitVec 32) = (r : EReal)
  unfold Ideal.ieee
  dsimp only
  rw [if_neg (by decide), if_neg (by decide)]
  exact ⟨_, rfl⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's arrays of the arguments: the kernel because every grid point writes its
    block of them and the blocks cover them, the reference operation by operation; the precondition makes the
    arguments real, which is what the kernel's order of operations needs. -/
theorem algebraic : Cert.algebraic_KernelIdeal_ReferenceIdeal := by
  intro m ρ m' ρ' hpre hagree
  obtain ⟨cR, hc⟩ := scale_real
  have hfin := fun c => Cert.FiniteArgs.real_of_pre _ _ _ (hpre c)
  choose q hq using fun c i => (hfin c).1 i
  choose k hk using fun c i => (hfin c).2.1 i
  choose v hv using fun c i => (hfin c).2.2 i
  have hR : ∀ c, Cert.KernelIdeal.KValue.RealArgs m c (q c) (k c) (v c) cR := fun c =>
    ⟨funext (hq c), funext (hk c), funext (hv c), hc⟩
  refine ⟨fun c => attended (fun y => (q c y : EReal)) (fun y => (k c y : EReal)) (fun y => (v c y : EReal)) (cR : EReal),
    fun c => score (fun y => (q c y : EReal)) (fun y => (k c y : EReal)) (cR : EReal),
    Cert.KernelIdeal.KValue.run m ρ q k v cR hR, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefValue.attended_eq,
      (hagree c).1, (hagree c).2.1, (hagree c).2.2]
    show attended (Cert.KernelIdeal.Inputs.argQ m c) (Cert.KernelIdeal.Inputs.argK m c) (Cert.KernelIdeal.Inputs.argV m c)
      Cert.KernelIdeal.Inputs.scale = _
    rw [(hR c).hq, (hR c).hk, (hR c).hv, (hR c).hc]
  · rw [Cert.ReferenceIdeal.Read.val_main_v6_eq, Cert.ReferenceIdeal.RefValue.score_eq, (hagree c).1, (hagree c).2.1]
    show score (Cert.KernelIdeal.Inputs.argQ m c) (Cert.KernelIdeal.Inputs.argK m c) Cert.KernelIdeal.Inputs.scale = _
    rw [(hR c).hq, (hR c).hk, (hR c).hc]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
